-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S30x128 : Shape := ⟨2, ![30, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S30x128 : S_.BroadcastsInDim S30x128 (![] : Fin 0 → Fin S30x128.rank)
  reducesTo_S30x128_S_d0_1 : S30x128.ReducesTo [0, 1] S_

variable [Facts]

def fn {F : FTy → Type} [FloatOps F] (main_arg0 : FVec F S100000x128 .f32) (main_arg1 : FVec F S30x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S30x128 .f32 := Host.absf main_arg1
  let main_cst_0 : FVec F S_ .f32 := constant S_ .f32 0x7F800000#32
  let main_v5 : FVec F S30x128 .f32 := broadcastInDim S30x128 ![] bcast_S_S30x128 main_cst_0
  let main_v6 : IVec S30x128 1 := cmpf .olt main_v4 main_v5
  let main_c_1 : IVec S_ 1 := constantI S_ 1 1#1
  let main_v7 : IVec S_ 1 := (fun x v => Host.reduce IntOp.andi x v reducesTo_S30x128_S_d0_1 h_S_) main_v6 main_c_1
  let main_v8 : IVec S_ 1 := andi main_v3 main_v7
  main_v8
-- ==== Kernel.lean ====
abbrev S100000x128 : Shape := ⟨2, ![100000, 128]⟩
abbrev S30x128 : Shape := ⟨2, ![30, 128]⟩
abbrev S10000x128 : Shape := ⟨2, ![10000, 128]⟩
abbrev S30x10000 : Shape := ⟨2, ![30, 10000]⟩
abbrev S10000 : Shape := ⟨1, ![10000]⟩
abbrev S1x10000 : Shape := ⟨2, ![1, 10000]⟩

abbrev nBuf : Space → Nat
  | .hbm => 3
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S30x128, .f32⟩
  | .hbm, ⟨2, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S30x128, .f32⟩
  | .local _ .vmem, ⟨3, _⟩ => ⟨S10000x128, .f32⟩
  | .local _ .vmem, ⟨4, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S30x128_S30x128_0_0 : ∀ a, (![0, 0] : Fin 2 → Nat) a + S30x128.size a ≤ S30x128.size a
  h_S30x128 : 0 < S30x128.numel
  reduces_S30x10000_S10000 : S30x10000.Reduces [0] S10000
  shapeCasts_S10000_S1x10000 : S10000.ShapeCasts S1x10000
  broadcasts_S1x10000_S30x10000 : S1x10000.Broadcasts S30x10000
  dot_S30x128_S10000x128_S30x10000_1_1_0_0_n_n_wf : DotDims.WF S30x128 S10000x128 S30x10000 [1] [1] [0] [0] [] []
  dot_S30x10000_S30x128_S10000x128_0_0_1_1_n_n_wf : DotDims.WF S30x10000 S30x128 S10000x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x128.size a ≤ S30x128.size a
  hwx0_1 : ∀ i : grid0.Coords, EltTy.bits .f32 = 32 ∨ (Rect.block (s := S30x128) S30x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)

variable [Facts₀]

def dot_S30x128_S10000x128_S30x10000_1_1_0_0_n_n : DotDims S30x128 S10000x128 S30x10000 where
  lhsContracting := [1]
  rhsContracting := [1]
  lhsNonContracting := [0]
  rhsNonContracting := [0]
  lhsBatch := []
  rhsBatch := []
  wf := dot_S30x128_S10000x128_S30x10000_1_1_0_0_n_n_wf
def dot_S30x10000_S30x128_S10000x128_0_0_1_1_n_n : DotDims S30x10000 S30x128 S10000x128 where
  lhsContracting := [0]
  rhsContracting := [0]
  lhsNonContracting := [1]
  rhsNonContracting := [1]
  lhsBatch := []
  rhsBatch := []
  wf := dot_S30x10000_S30x128_S10000x128_0_0_1_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S30x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S30x128 : Shape := ⟨2, ![30, 128]⟩
abbrev S128x30 : Shape := ⟨2, ![128, 30]⟩
abbrev S100000x30 : Shape := ⟨2, ![100000, 30]⟩
abbrev S_ : Shape := ⟨0, ![]⟩
abbrev S100000 : Shape := ⟨1, ![100000]⟩
abbrev S100000x1 : Shape := ⟨2, ![100000, 1]⟩

abbrev nBuf : Space → Nat
  | .hbm => 20
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S30x128, .f32⟩
  | .hbm, ⟨2, _⟩ => ⟨S128x30, .f32⟩
  | .hbm, ⟨3, _⟩ => ⟨S100000x30, .f32⟩
  | .hbm, ⟨4, _⟩ => ⟨S_, .f32⟩
  | .hbm, ⟨5, _⟩ => ⟨S100000, .f32⟩
  | .hbm, ⟨6, _⟩ => ⟨S_, .f32⟩
  | .hbm, ⟨7, _⟩ => ⟨S100000, .f32⟩
  | .hbm, ⟨8, _⟩ => ⟨S100000, .f32⟩
  | .hbm, ⟨9, _⟩ => ⟨S100000x1, .f32⟩
  | .hbm, ⟨10, _⟩ => ⟨S100000x30, .f32⟩
  | .hbm, ⟨11, _⟩ => ⟨S100000x30, .f32⟩
  | .hbm, ⟨12, _⟩ => ⟨S100000x30, .f32⟩
  | .hbm, ⟨13, _⟩ => ⟨S_, .f32⟩
  | .hbm, ⟨14, _⟩ => ⟨S100000, .f32⟩
  | .hbm, ⟨15, _⟩ => ⟨S100000x1, .f32⟩
  | .hbm, ⟨16, _⟩ => ⟨S100000x30, .f32⟩
  | .hbm, ⟨17, _⟩ => ⟨S100000x30, .f32⟩
  | .hbm, ⟨18, _⟩ => ⟨S100000x128, .f32⟩
  | .hbm, ⟨19, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  transposes_S30x128_S128x30_1_0 : S30x128.Transposes [1, 0] S128x30
  reducesTo_S100000x30_S100000_d1 : S100000x30.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x30_0_1 : S100000x1.BroadcastsInDim S100000x30 (![0, 1] : Fin 2 → Fin S100000x30.rank)
  dot_S100000x128_S128x30_S100000x30_1_0_0_1_n_n_wf : DotDims.WF S100000x128 S128x30 S100000x30 [1] [0] [0] [1] [] []
  dot_S100000x30_S30x128_S100000x128_1_0_0_1_n_n_wf : DotDims.WF S100000x30 S30x128 S100000x128 [1] [0] [0] [1] [] []

variable [Facts₀]

def dot_S100000x128_S128x30_S100000x30_1_0_0_1_n_n : DotDims S100000x128 S128x30 S100000x30 where
  lhsContracting := [1]
  rhsContracting := [0]
  lhsNonContracting := [0]
  rhsNonContracting := [1]
  lhsBatch := []
  rhsBatch := []
  wf := dot_S100000x128_S128x30_S100000x30_1_0_0_1_n_n_wf
def dot_S100000x30_S30x128_S100000x128_1_0_0_1_n_n : DotDims S100000x30 S30x128 S100000x128 where
  lhsContracting := [1]
  rhsContracting := [0]
  lhsNonContracting := [0]
  rhsNonContracting := [1]
  lhsBatch := []
  rhsBatch := []
  wf := dot_S100000x30_S30x128_S100000x128_1_0_0_1_n_n_wf

class Facts : Prop extends Facts₀ where

variable [Facts]
-- ==== Proof.SoftmaxShift.lean ====
/-
  Softmax does not change when one real number is subtracted from every logit.

  For real logits r_0, …, r_{n-1} (n ≥ 1) and a real μ,

      e^{r_j - μ} / ∑_k e^{r_k - μ}  =  e^{r_j} / ∑_k e^{r_k},

  because e^{r - μ} = e^r / e^μ and the common factor 1 / e^μ cancels between numerator and denominator; both
  denominators are sums of positive numbers, hence not zero. On the extended reals the same equation holds as long
  as the logits and the shift are real: every exponential is then a positive real, every sum of them a positive
  real, and the extended quotient is the real quotient. The maximum of finitely many reals, taken from −∞, is one
  such real shift; with an infinite logit the two sides can differ, which is why the logits must be real.
-/
import Idealize.ShloMosaic.PureOps.Ideal.Laws

noncomputable section

namespace Cert.SoftmaxShift

open Idealize.ShloMosaic

/-- The inclusion of the reals in the extended reals commutes with finite sums. -/
theorem coe_sum {ι : Type} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The inclusion commutes with a finite sum of products of reals. -/
theorem coe_sum_mul {ι : Type} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A sum of exponentials over a nonempty index set is positive. -/
theorem sum_exp_pos {n : ℕ} [NeZero n] (r : Fin n → ℝ) : 0 < ∑ k, Real.exp (r k) :=
  Finset.sum_pos (fun k _ => Real.exp_pos _) Finset.univ_nonempty

/-- Over the reals: the common shift cancels. -/
theorem real_shift {n : ℕ} (r : Fin n → ℝ) (μ : ℝ) (j : Fin n) :
    Real.exp (r j - μ) / ∑ k, Real.exp (r k - μ) = Real.exp (r j) / ∑ k, Real.exp (r k) := by
  simp only [Real.exp_sub]
  rw [← Finset.sum_div, div_div_div_cancel_right₀ (Real.exp_ne_zero μ)]

/-- On the extended reals, the quotient of one exponential by the sum of all, for real logits, is the real
    quotient. -/
theorem div_exp_coe {n : ℕ} [NeZero n] (r : Fin n → ℝ) (j : Fin n) :
    Ideal.div (Ideal.exp (r j : EReal)) (∑ k, Ideal.exp (r k : EReal))
      = ((Real.exp (r j) / ∑ k, Real.exp (r k) : ℝ) : EReal) := by
  simp only [Ideal.exp_coe]
  rw [← coe_sum, Ideal.div_coe (sum_exp_pos r).ne', ← EReal.coe_mul, one_div, div_eq_mul_inv]

/-- On the extended reals: for real logits, subtracting a real from every logit (and adding the sum of the shifted
    exponentials to zero) does not change the quotient. -/
theorem ideal_shift {n : ℕ} [NeZero n] (r : Fin n → ℝ) (μ : ℝ) (j : Fin n) :
    Ideal.div (Ideal.exp ((r j : EReal) - (μ : EReal))) (0 + ∑ k, Ideal.exp ((r k : EReal) - (μ : EReal)))
      = Ideal.div (Ideal.exp (r j : EReal)) (∑ k, Ideal.exp (r k : EReal)) := by
  rw [zero_add]
  simp only [← EReal.coe_sub]
  rw [div_exp_coe (fun k => r k - μ) j, div_exp_coe r j, real_shift]

/-- The maximum of finitely many reals (at least one), taken from −∞ and compared with −∞ once more, is a real. -/
theorem max_fold_real {n : ℕ} [NeZero n] (r : Fin n → ℝ) :
    ∃ μ : ℝ, max (⊥ : EReal) ((Finset.univ : Finset (Fin n)).fold max (⊥ : EReal) (fun k => (r k : EReal))) = (μ : EReal) := by
  rw [max_eq_right bot_le]
  have h1 : (Finset.univ : Finset (Fin n)).fold max (⊥ : EReal) (fun k => (r k : EReal)) ≠ ⊤ :=
    ne_of_lt ((Finset.fold_max_lt _).2 ⟨bot_lt_top, fun k _ => EReal.coe_lt_top _⟩)
  have h2 : (Finset.univ : Finset (Fin n)).fold max (⊥ : EReal) (fun k => (r k : EReal)) ≠ ⊥ :=
    ne_of_gt ((Finset.lt_fold_max _).2 (Or.inr ⟨0, Finset.mem_univ _, EReal.bot_lt_coe _⟩))
  exact ⟨_, (EReal.coe_toReal h1 h2).symm⟩

end Cert.SoftmaxShift

end
-- ==== Proof.PromptRow.lean ====
/-
  The prompt layer on one row.

  A row x of K numbers is scored against T token rows t_0, …, t_{T-1} (logit_j = ⟨x, t_j⟩), the scores are
  turned into softmax weights, and the weighted sum of the token rows is added to x:

      out_d = x_d + ∑_j w_j · t_{j,d},      w_j = e^{logit_j} / ∑_k e^{logit_k}.

  Two spellings are given. The direct one writes each logit with the token factor first and divides the
  exponentials as they are. The stabilised one writes each logit with the row's factor first, subtracts the
  largest logit M (a maximum taken from −∞ and compared with −∞ once more) before exponentiating, and starts its
  sum of exponentials from zero. For REAL rows the two agree: products commute, M is real, and subtracting a real
  from every logit does not change a softmax weight. The output at (row, d) depends on x only through that row, so
  the same formula describes a tile of rows and the whole array.
-/
import proofs.«181087_g52999896432999_cont_9to1_m_358_28_alg».proof.Proof.SoftmaxShift

noncomputable section

namespace Cert.PromptRow

open Idealize.ShloMosaic Cert.SoftmaxShift

variable {K T : ℕ}

/-- The direct spelling: logits with the token's factor first, plain quotient of exponentials. -/
def direct (x : Fin K → EReal) (t : Fin T → Fin K → EReal) (d : Fin K) : EReal :=
  x d + ∑ j : Fin T, Ideal.div (Ideal.exp (∑ k : Fin K, t j k * x k)) (∑ j' : Fin T, Ideal.exp (∑ k : Fin K, t j' k * x k)) * t j d

/-- The largest logit of the row, as the stabilised spelling takes it. -/
def rowMax (x : Fin K → EReal) (t : Fin T → Fin K → EReal) : EReal :=
  max (⊥ : EReal) ((Finset.univ : Finset (Fin T)).fold max (⊥ : EReal) (fun j => ∑ k : Fin K, x k * t j k))

/-- The stabilised spelling: logits with the row's factor first, the largest logit subtracted, the sum of the
    exponentials started from zero. -/
def stabilised (x : Fin K → EReal) (t : Fin T → Fin K → EReal) (d : Fin K) : EReal :=
  x d + ∑ j : Fin T, Ideal.div (Ideal.exp ((∑ k : Fin K, x k * t j k) - rowMax x t))
      (0 + ∑ j' : Fin T, Ideal.exp ((∑ k : Fin K, x k * t j' k) - rowMax x t)) * t j d

/-- For real rows (and at least one token) the two spellings are one number. -/
theorem stabilised_eq_direct [NeZero T] (xr : Fin K → ℝ) (tr : Fin T → Fin K → ℝ) (d : Fin K) :
    stabilised (fun k => (xr k : EReal)) (fun j k => (tr j k : EReal)) d
      = direct (fun k => (xr k : EReal)) (fun j k => (tr j k : EReal)) d := by
  have hl : ∀ j : Fin T, (∑ k : Fin K, (xr k : EReal) * (tr j k : EReal)) = ((∑ k : Fin K, xr k * tr j k : ℝ) : EReal) :=
    fun j => (coe_sum_mul _ _ _).symm
  have hl' : ∀ j : Fin T, (∑ k : Fin K, (tr j k : EReal) * (xr k : EReal)) = ((∑ k : Fin K, xr k * tr j k : ℝ) : EReal) :=
    fun j => by
      rw [← coe_sum_mul]
      exact congrArg _ (Finset.sum_congr rfl fun k _ => mul_comm _ _)
  obtain ⟨μ, hμ⟩ := max_fold_real (fun j : Fin T => ∑ k : Fin K, xr k * tr j k)
  have hM : rowMax (fun k => (xr k : EReal)) (fun j k => (tr j k : EReal)) = (μ : EReal) := by
    unfold rowMax
    simp only [hl]
    exact hμ
  unfold stabilised direct
  rw [hM]
  simp only [hl, hl']
  refine congrArg (_ + ·) (Finset.sum_congr rfl fun j _ => ?_)
  rw [ideal_shift (fun j : Fin T => ∑ k : Fin K, xr k * tr j k) μ j]

/-- The same for rows of extended reals every entry of which is real. -/
theorem stabilised_eq_direct_of_real [NeZero T] (x : Fin K → EReal) (t : Fin T → Fin K → EReal)
    (hx : ∀ k, x k ≠ ⊤ ∧ x k ≠ ⊥) (ht : ∀ j k, t j k ≠ ⊤ ∧ t j k ≠ ⊥) (d : Fin K) :
    stabilised x t d = direct x t d := by
  have ex : x = fun k => (((x k).toReal : ℝ) : EReal) := funext fun k => (EReal.coe_toReal (hx k).1 (hx k).2).symm
  have et : t = fun j k => (((t j k).toReal : ℝ) : EReal) :=
    funext fun j => funext fun k => (EReal.coe_toReal (ht j k).1 (ht j k).2).symm
  rw [ex, et]
  exact stabilised_eq_direct _ _ d

end Cert.PromptRow

end
-- ==== Proof.KernelRow.lean ====
/-
  What the kernel's body computes on one tile of 10000 rows, entry by entry: the direct spelling of the prompt layer
  on the entry's row.

  The body keeps the token axis first. Its first product contracts the feature axis of the token block t (30 × 128)
  with the feature axis of the row tile x (10000 × 128): entry (j, p) is the logit ∑_k t[j, k] · x[p, k]. The
  exponentials are summed over the token axis, the row of sums is laid under all 30 token rows, and the quotient is
  the softmax weight of token j for row p. The second product contracts the token axis of the weights (30 × 10000)
  with the token axis of t: entry (p, d) is ∑_j weight[j, p] · t[j, d]. Adding x[p, d] gives the output entry.
-/
import proofs.«181087_g52999896432999_cont_9to1_m_358_28_alg».proof.Proof.Gen.KernelIdeal.Skeleton
import proofs.«181087_g52999896432999_cont_9to1_m_358_28_alg».proof.Proof.PromptRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KernelRow

open Cert.KernelIdeal Cert.KernelIdeal.Gen
open Idealize.ShloMosaic Idealize.ShloMosaic.ValueIdx

/-! ## The first product: tokens against the tile's rows, both contracted on the feature axis -/

/-- The token operand keeps the result's token coordinate. -/
theorem logits_lhs_0 (i : S30x10000.Idx) (q : dot_S30x128_S10000x128_S30x10000_1_1_0_0_n_n.contr.Idx) :
    (dot_S30x128_S10000x128_S30x10000_1_1_0_0_n_n.lhsIdx i q 0).val = (i 0).val := by
  unfold DotDims.lhsIdx
  rw [dif_neg (show ¬(0 : Fin S30x128.rank) ∈ dot_S30x128_S10000x128_S30x10000_1_1_0_0_n_n.lhsBatch by decide), dif_pos (show (0 : Fin S30x128.rank) ∈ dot_S30x128_S10000x128_S30x10000_1_1_0_0_n_n.lhsNonContracting by decide)]
  rfl
/-- Its feature coordinate is the contraction position. -/
theorem logits_lhs_1 (i : S30x10000.Idx) (q : dot_S30x128_S10000x128_S30x10000_1_1_0_0_n_n.contr.Idx) :
    (dot_S30x128_S10000x128_S30x10000_1_1_0_0_n_n.lhsIdx i q 1).val = (q ⟨0, by decide⟩).val :=
  dot_S30x128_S10000x128_S30x10000_1_1_0_0_n_n.lhsIdx_val_of_single rfl i q
/-- The row operand's row is the result's second coordinate. -/
theorem logits_rhs_0 (i : S30x10000.Idx) (q : dot_S30x128_S10000x128_S30x10000_1_1_0_0_n_n.contr.Idx) :
    (dot_S30x128_S10000x128_S30x10000_1_1_0_0_n_n.rhsIdx i q 0).val = (i 1).val := by
  unfold DotDims.rhsIdx
  rw [dif_neg (show ¬(0 : Fin S10000x128.rank) ∈ dot_S30x128_S10000x128_S30x10000_1_1_0_0_n_n.rhsBatch by decide), dif_pos (show (0 : Fin S10000x128.rank) ∈ dot_S30x128_S10000x128_S30x10000_1_1_0_0_n_n.rhsNonContracting by decide)]
  rfl
/-- Its feature coordinate is the contraction position. -/
theorem logits_rhs_1 (i : S30x10000.Idx) (q : dot_S30x128_S10000x128_S30x10000_1_1_0_0_n_n.contr.Idx) :
    (dot_S30x128_S10000x128_S30x10000_1_1_0_0_n_n.rhsIdx i q 1).val = (q ⟨0, by decide⟩).val :=
  dot_S30x128_S10000x128_S30x10000_1_1_0_0_n_n.rhsIdx_val_of_single rfl i q

/-- Entry (j, p) of the first product into a zero accumulator is the logit of row p against token j. -/
theorem logits_apply (tk : FVec Ideal S30x128 .f32) (x : FVec Ideal S10000x128 .f32) (j : Fin 30) (p : Fin 10000) :
    matmul dot_S30x128_S10000x128_S30x10000_1_1_0_0_n_n none tk x (constant S30x10000 .f32 0x00000000#32) (ix2 j p)
      = ∑ k : Fin 128, tk (ix2 j k) * x (ix2 p k) := by
  simp only [matmul]
  rw [Ideal.matmul_constant_zero_apply, ← Equiv.sum_comp (contrEquiv1 dot_S30x128_S10000x128_S30x10000_1_1_0_0_n_n 128 rfl rfl).symm]
  refine Finset.sum_congr rfl fun k _ => ?_
  have hk := contrEquiv1_symm_val dot_S30x128_S10000x128_S30x10000_1_1_0_0_n_n 128 rfl rfl k
  have el : dot_S30x128_S10000x128_S30x10000_1_1_0_0_n_n.lhsIdx (ix2 j p) ((contrEquiv1 dot_S30x128_S10000x128_S30x10000_1_1_0_0_n_n 128 rfl rfl).symm k) = ix2 j k := funext fun a => Fin.ext (by
    match a with
    | ⟨0, _⟩ => exact logits_lhs_0 _ _
    | ⟨1, _⟩ => exact (logits_lhs_1 _ _).trans hk)
  have er : dot_S30x128_S10000x128_S30x10000_1_1_0_0_n_n.rhsIdx (ix2 j p) ((contrEquiv1 dot_S30x128_S10000x128_S30x10000_1_1_0_0_n_n 128 rfl rfl).symm k) = ix2 p k := funext fun a => Fin.ext (by
    match a with
    | ⟨0, _⟩ => exact logits_rhs_0 _ _
    | ⟨1, _⟩ => exact (logits_rhs_1 _ _).trans hk)
  rw [el, er]

/-! ## The second product: weights against tokens, both contracted on the token axis -/

/-- The weight operand's token coordinate is the contraction position. -/
theorem prompt_lhs_0 (i : S10000x128.Idx) (q : dot_S30x10000_S30x128_S10000x128_0_0_1_1_n_n.contr.Idx) :
    (dot_S30x10000_S30x128_S10000x128_0_0_1_1_n_n.lhsIdx i q 0).val = (q ⟨0, by decide⟩).val :=
  dot_S30x10000_S30x128_S10000x128_0_0_1_1_n_n.lhsIdx_val_of_single rfl i q
/-- Its row coordinate is the result's row. -/
theorem prompt_lhs_1 (i : S10000x128.Idx) (q : dot_S30x10000_S30x128_S10000x128_0_0_1_1_n_n.contr.Idx) :
    (dot_S30x10000_S30x128_S10000x128_0_0_1_1_n_n.lhsIdx i q 1).val = (i 0).val := by
  unfold DotDims.lhsIdx
  rw [dif_neg (show ¬(1 : Fin S30x10000.rank) ∈ dot_S30x10000_S30x128_S10000x128_0_0_1_1_n_n.lhsBatch by decide), dif_pos (show (1 : Fin S30x10000.rank) ∈ dot_S30x10000_S30x128_S10000x128_0_0_1_1_n_n.lhsNonContracting by decide)]
  rfl
/-- The token operand's token coordinate is the contraction position. -/
theorem prompt_rhs_0 (i : S10000x128.Idx) (q : dot_S30x10000_S30x128_S10000x128_0_0_1_1_n_n.contr.Idx) :
    (dot_S30x10000_S30x128_S10000x128_0_0_1_1_n_n.rhsIdx i q 0).val = (q ⟨0, by decide⟩).val :=
  dot_S30x10000_S30x128_S10000x128_0_0_1_1_n_n.rhsIdx_val_of_single rfl i q
/-- Its feature coordinate is the result's column. -/
theorem prompt_rhs_1 (i : S10000x128.Idx) (q : dot_S30x10000_S30x128_S10000x128_0_0_1_1_n_n.contr.Idx) :
    (dot_S30x10000_S30x128_S10000x128_0_0_1_1_n_n.rhsIdx i q 1).val = (i 1).val := by
  unfold DotDims.rhsIdx
  rw [dif_neg (show ¬(1 : Fin S30x128.rank) ∈ dot_S30x10000_S30x128_S10000x128_0_0_1_1_n_n.rhsBatch by decide), dif_pos (show (1 : Fin S30x128.rank) ∈ dot_S30x10000_S30x128_S10000x128_0_0_1_1_n_n.rhsNonContracting by decide)]
  rfl

/-- Entry (p, d) of the second product into a zero accumulator is the weighted sum of the token rows at d. -/
theorem prompt_apply (w : FVec Ideal S30x10000 .f32) (tk : FVec Ideal S30x128 .f32) (p : Fin 10000) (d : Fin 128) :
    matmul dot_S30x10000_S30x128_S10000x128_0_0_1_1_n_n none w tk (constant S10000x128 .f32 0x00000000#32) (ix2 p d)
      = ∑ j : Fin 30, w (ix2 j p) * tk (ix2 j d) := by
  simp only [matmul]
  rw [Ideal.matmul_constant_zero_apply, ← Equiv.sum_comp (contrEquiv1 dot_S30x10000_S30x128_S10000x128_0_0_1_1_n_n 30 rfl rfl).symm]
  refine Finset.sum_congr rfl fun k _ => ?_
  have hk := contrEquiv1_symm_val dot_S30x10000_S30x128_S10000x128_0_0_1_1_n_n 30 rfl rfl k
  have el : dot_S30x10000_S30x128_S10000x128_0_0_1_1_n_n.lhsIdx (ix2 p d) ((contrEquiv1 dot_S30x10000_S30x128_S10000x128_0_0_1_1_n_n 30 rfl rfl).symm k) = ix2 k p := funext fun a => Fin.ext (by
    match a with
    | ⟨0, _⟩ => exact (prompt_lhs_0 _ _).trans hk
    | ⟨1, _⟩ => exact prompt_lhs_1 _ _)
  have er : dot_S30x10000_S30x128_S10000x128_0_0_1_1_n_n.rhsIdx (ix2 p d) ((contrEquiv1 dot_S30x10000_S30x128_S10000x128_0_0_1_1_n_n 30 rfl rfl).symm k) = ix2 k d := funext fun a => Fin.ext (by
    match a with
    | ⟨0, _⟩ => exact (prompt_rhs_0 _ _).trans hk
    | ⟨1, _⟩ => exact prompt_rhs_1 _ _)
  rw [el, er]

/-! ## The softmax weights, token axis first -/

/-- The reduced index `p` with the token coordinate `k` put back on axis 0 is (k, p). -/
theorem lift_token (h : S30x10000.Reduces [0] S10000) (p : Fin 10000) (k : Fin (S30x10000.size 0)) :
    h.lift (ix1 p) k = ix2 (⟨k.val, k.isLt⟩ : Fin 30) p := by
  funext c; apply Fin.ext
  fin_cases c <;> rfl

/-- A 30 × 10000 array divided by its column sums (summed over the token axis, cast to one row, laid under every token
    row), read at (j, p). -/
theorem weight_apply (e : FVec Ideal S30x10000 .f32) (j : Fin 30) (p : Fin 10000) :
    divf e (broadcastTo S30x10000 (shapeCast S1x10000
        (multiReduction .add [0] S10000 e 0x00000000#32 reduces_S30x10000_S10000 (.inl rfl) rfl) shapeCasts_S10000_S1x10000)
        broadcasts_S1x10000_S30x10000) (ix2 j p)
      = Ideal.div (e (ix2 j p)) (∑ j' : Fin 30, e (ix2 j' p)) := by
  show Ideal.div (e (ix2 j p)) (broadcastTo S30x10000 (shapeCast S1x10000
        (multiReduction .add [0] S10000 e 0x00000000#32 reduces_S30x10000_S10000 (.inl rfl) rfl) shapeCasts_S10000_S1x10000)
        broadcasts_S1x10000_S30x10000 (ix2 j p)) = _
  rw [broadcastTo_1b_ab_apply, shapeCast_a_1a_apply]
  refine congrArg (Ideal.div (e (ix2 j p)))
    ((Ideal.multiReduction_add_single e 0x00000000#32 reduces_S30x10000_S10000 (.inl rfl) rfl (ix1 p)).trans ?_)
  exact Finset.sum_congr rfl fun k _ => congrArg e (lift_token reduces_S30x10000_S10000 p k)

/-! ## The payload -/

/-- The stored tile at (p, d) is the direct spelling of the layer on row p of the loaded tile. -/
theorem payload_apply (x : FVec Ideal S10000x128 .f32) (tk : FVec Ideal S30x128 .f32) (p : Fin 10000) (d : Fin 128) :
    k0_pay1 (F := Ideal) x tk (ix2 p d) = PromptRow.direct (fun k => x (ix2 p k)) (fun j k => tk (ix2 j k)) d := by
  unfold k0_pay1
  show x (ix2 p d) + matmul (F := Ideal) dot_S30x10000_S30x128_S10000x128_0_0_1_1_n_n none _ tk (constant (F := Ideal) S10000x128 .f32 0x00000000#32) (ix2 p d) = _
  rw [prompt_apply]
  unfold PromptRow.direct
  refine congrArg (x (ix2 p d) + ·) (Finset.sum_congr rfl fun j _ => ?_)
  rw [weight_apply]
  show Ideal.div (Ideal.exp (matmul (F := Ideal) dot_S30x128_S10000x128_S30x10000_1_1_0_0_n_n none tk x (constant (F := Ideal) S30x10000 .f32 0x00000000#32) (ix2 j p)))
      (∑ j' : Fin 30, Ideal.exp (matmul (F := Ideal) dot_S30x128_S10000x128_S30x10000_1_1_0_0_n_n none tk x (constant (F := Ideal) S30x10000 .f32 0x00000000#32) (ix2 j' p))) * tk (ix2 j d) = _
  simp only [logits_apply]

end Cert.KernelIdeal.KernelRow

end
-- ==== Proof.PromptArray.lean ====
/-
  The prompt layer on the whole node array: entry (p, d) of the result is the direct spelling of the layer on row p
  of the 100000 × 128 node array against the 30 × 128 token matrix, at feature d.
-/
import proofs.«181087_g52999896432999_cont_9to1_m_358_28_alg».proof.Proof.PromptRow
import Idealize.ShloMosaic.Lib.ValueIdx

noncomputable section

namespace Cert.PromptArray

open Idealize.ShloMosaic Idealize.ShloMosaic.ValueIdx

/-- The row coordinate of an index of the node array. -/
abbrev row (i : (⟨2, ![100000, 128]⟩ : Shape).Idx) : Fin 100000 := ⟨(i 0).val, (i 0).isLt⟩
/-- Its feature coordinate. -/
abbrev col (i : (⟨2, ![100000, 128]⟩ : Shape).Idx) : Fin 128 := ⟨(i 1).val, (i 1).isLt⟩

/-- The token matrix by (token, feature). -/
abbrev tokens (a1 : (⟨2, ![30, 128]⟩ : Shape).Idx → EReal) : Fin 30 → Fin 128 → EReal := fun j k => a1 (ix2 j k)

/-- The layer's result as one function of the two argument arrays, index by index. -/
def G (a0 : (⟨2, ![100000, 128]⟩ : Shape).Idx → EReal) (a1 : (⟨2, ![30, 128]⟩ : Shape).Idx → EReal) :
    (⟨2, ![100000, 128]⟩ : Shape).Idx → EReal :=
  fun i => PromptRow.direct (fun k => a0 (ix2 (row i) k)) (tokens a1) (col i)

/-- At (p, d) it is the direct spelling on row p. -/
theorem G_apply (a0 : (⟨2, ![100000, 128]⟩ : Shape).Idx → EReal) (a1 : (⟨2, ![30, 128]⟩ : Shape).Idx → EReal)
    (p : Fin 100000) (d : Fin 128) :
    G a0 a1 (ix2 p d) = PromptRow.direct (fun k => a0 (ix2 p k)) (tokens a1) d := rfl

end Cert.PromptArray

end
-- ==== Proof.KernelValue.lean ====
/-
  The kernel's output array after the run is the layer's whole-array function of the two argument arrays.

  The grid has ten points. Point t stages rows 10000·t … 10000·t + 9999 of the node array, the whole token matrix, and
  writes back the same rows of the result. What it writes at (p, d) of its tile is the direct spelling of the layer on
  row p of the tile, which is row 10000·t + p of the node array; so each written tile is the restriction of one
  whole-array function, and the ten tiles cover every row (row r lies in tile r / 10000).
-/
import proofs.«181087_g52999896432999_cont_9to1_m_358_28_alg».proof.Proof.Gen.KernelIdeal.Value
import proofs.«181087_g52999896432999_cont_9to1_m_358_28_alg».proof.Proof.KernelRow
import proofs.«181087_g52999896432999_cont_9to1_m_358_28_alg».proof.Proof.PromptArray

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.PromptArray

variable (m : (ℓ : Loc nD τ sig) → Buf (Elt Ideal) ℓ) (ρ : Dev nD → PrngReg)

theorem origin : (![0, 0] : Fin 2 → Nat) = fun _ => 0 := funext fun a => by fin_cases a <;> rfl

/-- The printed index maps over the ten points: the node tile and the result tile are tile t of their arrays, the
    token window is always the whole matrix. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node tile of point t as an array of the tile's literal shape. -/
abbrev xtile (c : Dev nD) (t : Fin cfg0.N) : FVec Ideal S10000x128 .f32 := iblk m c 0 t
/-- The token block of point t. -/
abbrev ttile (c : Dev nD) (t : Fin cfg0.N) : FVec Ideal S30x128 .f32 := iblk m c 1 t

/-- Row p of point t's node tile is row 10000·t + p of the node array. -/
theorem xtile_apply (c : Dev nD) (t : Fin cfg0.N) (p : Fin 10000) (k : Fin 128) (hb : t.val * 10000 + p.val < 100000) :
    xtile m c t (ix2 p k) = V m c main_arg0 (ix2 (⟨t.val * 10000 + p.val, hb⟩ : Fin 100000) k) := by
  obtain ⟨e0, e1, -, -, -, -⟩ := index_facts t
  show V m c main_arg0 (((cfg0.win 0).blk t).view.emb (ix2 p k)) = _
  refine congrArg (V m c main_arg0) (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- Point t's token block is the token matrix. -/
theorem ttile_apply (c : Dev nD) (t : Fin cfg0.N) (j : Fin 30) (k : Fin 128) :
    ttile m c t (ix2 j k) = V m c main_arg1 (ix2 j k) := by
  obtain ⟨-, -, e2, e3, -, -⟩ := index_facts t
  show V m c main_arg1 (((cfg0.win 1).blk t).view.emb (ix2 j k)) = _
  refine congrArg (V m c main_arg1) (funext fun a => Fin.ext ?_)
  match a with
  | ⟨0, _⟩ => show win0_1.index t (0 : Fin 2) * 30 + 1 * j.val = j.val; omega
  | ⟨1, _⟩ => show win0_1.index t (1 : Fin 2) * 128 + 1 * k.val = k.val; omega

/-- A stored tile is the restriction of the whole-array function: for a tile x that is rows b·10000 … of a0 and a token
    block that is a1, the payload at y is G at the array index y sits at. -/
theorem tile_eq (x : FVec Ideal S10000x128 .f32) (tk : FVec Ideal S30x128 .f32)
    (a0 : (⟨2, ![100000, 128]⟩ : Shape).Idx → EReal) (a1 : (⟨2, ![30, 128]⟩ : Shape).Idx → EReal) (b : ℕ)
    (hx : ∀ (p : Fin 10000) (k : Fin 128) (hb : b * 10000 + p.val < 100000), x (ix2 p k) = a0 (ix2 (⟨b * 10000 + p.val, hb⟩ : Fin 100000) k))
    (ht : ∀ (j : Fin 30) (k : Fin 128), tk (ix2 j k) = a1 (ix2 j k))
    (y : S10000x128.Idx) (i : (⟨2, ![100000, 128]⟩ : Shape).Idx) (h0 : (i 0).val = b * 10000 + (y 0).val) (h1 : (i 1).val = (y 1).val) :
    k0_pay1 (F := Ideal) x tk y = G a0 a1 i := by
  obtain ⟨p, d, rfl⟩ : ∃ (p : Fin 10000) (d : Fin 128), y = ix2 p d := ⟨y 0, y 1, eq_ix2 y⟩
  refine (KernelRow.payload_apply x tk p d).trans ?_
  have hb : b * 10000 + p.val < 100000 := by
    have hlt : (i 0).val < 100000 := (i 0).isLt
    have e : (i 0).val = b * 10000 + p.val := h0
    omega
  have er : row i = (⟨b * 10000 + p.val, hb⟩ : Fin 100000) := Fin.ext h0
  have ec : col i = d := Fin.ext h1
  have hx' : (fun k => x (ix2 p k)) = fun k => a0 (ix2 (row i) k) := funext fun k => by rw [er]; exact hx p k hb
  have ht' : (fun j k => tk (ix2 j k)) = tokens a1 := funext fun j => funext fun k => ht j k
  show PromptRow.direct (fun k => x (ix2 p k)) (fun j k => tk (ix2 j k)) d = PromptRow.direct (fun k => a0 (ix2 (row i) k)) (tokens a1) (col i)
  rw [hx', ht', ec]

/-- WHAT POINT t WRITES BACK is tile t of the whole-array function of the arrays as the region finds them. -/
theorem flushed_eq (c : Dev nD) (t : Fin cfg0.N) :
    (dats m 0 c).flushed 2 t = ((cfg0.win 2).blk t).view.read (Elt Ideal) (G (V m c main_arg0) (V m c main_arg1)) := by
  rw [Value.flushed2]
  unfold out0_2
  rw [View.canon_unit_zero origin]
  simp only [View.ld_unit_zero (S := S10000x128) origin, View.ld_unit_zero (S := S30x128) origin]
  obtain ⟨-, -, -, -, e4, e5⟩ := index_facts t
  funext y
  show k0_pay1 (F := Ideal) (xtile m c t) (ttile m c t) y = G (V m c main_arg0) (V m c main_arg1) (((cfg0.win 2).blk t).view.emb y)
  refine tile_eq (xtile m c t) (ttile m c t) (V m c main_arg0) (V m c main_arg1) t.val
    (fun p k hb => xtile_apply m c t p k hb) (fun j k => ttile_apply m c t j k) y _ ?_ ?_
  · show win0_2.index t (0 : Fin 2) * 10000 + 1 * (y 0).val = t.val * 10000 + (y 0).val; omega
  · show win0_2.index t (1 : Fin 2) * 128 + 1 * (y 1).val = (y 1).val; omega

/-- An index of the result array is in point t's tile iff each coordinate is in the tile's range on its axis. -/
theorem mem_tile (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- Every index of the result array lies in some point's tile: row r in tile r / 10000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 10000 < cfg0.N := by
    show (i 0).val / 10000 < 10
    omega
  obtain ⟨t, htv⟩ : ∃ t : Fin cfg0.N, t.val = (i 0).val / 10000 := ⟨⟨(i 0).val / 10000, ht⟩, rfl⟩
  refine ⟨t, flush0_2 t, ?_⟩
  rw [mem_tile]
  obtain ⟨-, -, -, -, e4, e5⟩ := index_facts t
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- THE ARRAY after the run is the whole-array function of the argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) covered

/-- The run, read: the result array at the whole-array function of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefRow.lean ====
/-
  The reference program's result, entry by entry, is the stabilised spelling of the prompt layer on the entry's row.

  Entry (p, d) of the result is x[p, d] plus the sum over the 30 tokens of a weight times t[j, d]. The weight of
  token j is e^{ℓ_j − M} divided by (0 + ∑_k e^{ℓ_k − M}), where ℓ_j = ∑_k x[p, k] · t[j, k] is the row's logit
  against token j (the product with the transposed token matrix, read at (p, j)) and M is the row's largest logit:
  a maximum over the token axis taken from −∞, then compared with −∞ once more and laid along the row.
-/
import proofs.«181087_g52999896432999_cont_9to1_m_358_28_alg».proof.Proof.Gen.ReferenceIdeal.Read
import proofs.«181087_g52999896432999_cont_9to1_m_358_28_alg».proof.Proof.PromptRow
import Idealize.ShloMosaic.Lib.ValueIdx

noncomputable section

namespace Cert.ReferenceIdeal.RefRow

open Cert.ReferenceIdeal Cert.ReferenceIdeal.Gen Cert.ReferenceIdeal.Read
open Idealize.ShloMosaic Idealize.ShloMosaic.ValueIdx

/-- Row `p` of the node array. -/
abbrev xrow (x0 : (⟨S100000x128, .f32⟩ : BufTy).Contents (Elt Ideal)) (p : Fin 100000) : Fin 128 → EReal :=
  fun k => x0 (ix2 p k)
/-- The token matrix by (token, feature). -/
abbrev tok (x1 : (⟨S30x128, .f32⟩ : BufTy).Contents (Elt Ideal)) : Fin 30 → Fin 128 → EReal :=
  fun j k => x1 (ix2 j k)

variable (x0 : (⟨S100000x128, .f32⟩ : BufTy).Contents (Elt Ideal)) (x1 : (⟨S30x128, .f32⟩ : BufTy).Contents (Elt Ideal))

/-- The logits: entry (p, j) of the product with the transposed token matrix is ∑_k x[p, k] · t[j, k]. -/
theorem logit_apply (p : Fin 100000) (j : Fin 30) :
    val_main_v1 (F := Ideal) x0 x1 (ix2 p j) = ∑ k : Fin 128, xrow x0 p k * tok x1 j k := by
  rw [val_main_v1_apply]
  refine Finset.sum_congr rfl fun k _ => ?_
  rw [val_main_v0_apply]
  have e1 : lidx_main_v1 (ix2 p j) k = ix2 p k :=
    funext fun a => Fin.ext (by match a with | ⟨0, _⟩ => rfl | ⟨1, _⟩ => rfl)
  have e2 : idx_main_v0 (ridx_main_v1 (ix2 p j) k) = ix2 j k :=
    funext fun a => Fin.ext (by match a with | ⟨0, _⟩ => rfl | ⟨1, _⟩ => rfl)
  rw [e1, e2]

/-- The reduced index `p` with the token coordinate `k` put back is (p, k). -/
theorem lift_row (h : S100000x30.Reduces [1] S100000) (p : Fin 100000) (k : Fin (S100000x30.size 1)) :
    h.lift (ix1 p) k = ix2 p (⟨k.val, k.isLt⟩ : Fin 30) := by
  funext c; apply Fin.ext
  fin_cases c <;> rfl

/-- The row's largest logit, as the program takes it. -/
theorem rowMax_apply (p : Fin 100000) :
    val_main_v4 (F := Ideal) x0 x1 (ix1 p) = PromptRow.rowMax (xrow x0 p) (tok x1) := by
  have hR : S100000x30.Reduces [1] S100000 := by decide
  have hbot : Ideal.ofBits .f32 0xFF800000#32 = (⊥ : EReal) := by simp [Ideal.ofBits, Ideal.ieee]
  rw [val_main_v4_apply, val_main_v3_apply, val_main_cst_0_apply]
  unfold val_main_v2
  rw [Host.reduce_eq_fold_single FloatOps.maximumf _ _ reducesTo_S100000x30_S100000_d1 hR h_S_]
  have hf : (val_main_v1 (F := Ideal) x0 x1 ∘ hR.lift (ix1 p)) = fun j : Fin 30 => ∑ k : Fin 128, xrow x0 p k * tok x1 j k :=
    funext fun j => by
      show val_main_v1 (F := Ideal) x0 x1 (hR.lift (ix1 p) j) = _
      rw [lift_row hR p j]
      exact logit_apply x0 x1 p _
  rw [hf, val_main_cst_apply]
  show max (Ideal.ofBits .f32 0xFF800000#32)
      (Finset.fold max (Ideal.ofBits .f32 0xFF800000#32) (fun j : Fin 30 => ∑ k : Fin 128, xrow x0 p k * tok x1 j k) Finset.univ) = _
  rw [hbot]
  rfl

/-- The shifted exponential at (p, j). -/
theorem expShift_apply (p : Fin 100000) (j : Fin 30) :
    val_main_v8 (F := Ideal) x0 x1 (ix2 p j)
      = Ideal.exp ((∑ k : Fin 128, xrow x0 p k * tok x1 j k) - PromptRow.rowMax (xrow x0 p) (tok x1)) := by
  rw [val_main_v8_apply, val_main_v7_apply, val_main_v6_apply, val_main_v5_apply]
  have e : idx_main_v5 (idx_main_v6 (ix2 p j)) = ix1 p :=
    funext fun a => Fin.ext (by match a with | ⟨0, _⟩ => rfl)
  rw [e, rowMax_apply, logit_apply]
  rfl

/-- The row's sum of shifted exponentials, started from zero. -/
theorem sumExp_apply (p : Fin 100000) :
    val_main_v9 (F := Ideal) x0 x1 (ix1 p)
      = 0 + ∑ j : Fin 30, Ideal.exp ((∑ k : Fin 128, xrow x0 p k * tok x1 j k) - PromptRow.rowMax (xrow x0 p) (tok x1)) := by
  rw [val_main_v9_apply, val_main_cst_1_apply]
  show Ideal.ofBits .f32 0x00000000#32 + _ = _
  rw [Ideal.ofBits_zero_f32]
  refine congrArg (0 + ·) (Finset.sum_congr rfl fun j _ => ?_)
  have e : idx_main_v9 (ix1 p) j = ix2 p j :=
    funext fun a => Fin.ext (by match a with | ⟨0, _⟩ => rfl | ⟨1, _⟩ => rfl)
  rw [e, expShift_apply]

/-- The softmax weight at (p, j). -/
theorem weight_apply (p : Fin 100000) (j : Fin 30) :
    val_main_v12 (F := Ideal) x0 x1 (ix2 p j)
      = Ideal.div (Ideal.exp ((∑ k : Fin 128, xrow x0 p k * tok x1 j k) - PromptRow.rowMax (xrow x0 p) (tok x1)))
          (0 + ∑ j' : Fin 30, Ideal.exp ((∑ k : Fin 128, xrow x0 p k * tok x1 j' k) - PromptRow.rowMax (xrow x0 p) (tok x1))) := by
  rw [val_main_v12_apply, val_main_v11_apply, val_main_v10_apply]
  have e : idx_main_v10 (idx_main_v11 (ix2 p j)) = ix1 p :=
    funext fun a => Fin.ext (by match a with | ⟨0, _⟩ => rfl)
  rw [e, sumExp_apply, expShift_apply]
  rfl

/-- The result at (p, d) is the stabilised spelling on row p. -/
theorem result_apply (p : Fin 100000) (d : Fin 128) :
    val_main_v14 (F := Ideal) x0 x1 (ix2 p d) = PromptRow.stabilised (xrow x0 p) (tok x1) d := by
  rw [val_main_v14_apply, val_main_v13_apply]
  unfold PromptRow.stabilised
  show x0 (ix2 p d) + _ = _
  refine congrArg (x0 (ix2 p d) + ·) (Finset.sum_congr rfl fun j _ => ?_)
  have e1 : lidx_main_v13 (ix2 p d) j = ix2 p j :=
    funext fun a => Fin.ext (by match a with | ⟨0, _⟩ => rfl | ⟨1, _⟩ => rfl)
  have e2 : ridx_main_v13 (ix2 p d) j = ix2 j d :=
    funext fun a => Fin.ext (by match a with | ⟨0, _⟩ => rfl | ⟨1, _⟩ => rfl)
  rw [e1, e2, weight_apply]

end Cert.ReferenceIdeal.RefRow

end
-- ==== Proof.RefValue.lean ====
/-
  For real argument arrays the reference program's result is the layer's whole-array function.

  Entry by entry the reference computes the stabilised spelling of the layer on the entry's row; for a real row and a
  real token matrix that is the direct spelling, because subtracting the row's largest logit changes no softmax weight.
-/
import proofs.«181087_g52999896432999_cont_9to1_m_358_28_alg».proof.Proof.RefRow
import proofs.«181087_g52999896432999_cont_9to1_m_358_28_alg».proof.Proof.PromptArray

noncomputable section

namespace Cert.ReferenceIdeal.Whole

open Cert.ReferenceIdeal Cert.ReferenceIdeal.Gen Cert.ReferenceIdeal.Read
open Idealize.ShloMosaic Idealize.ShloMosaic.ValueIdx

/-- The reference's last stage, for arrays every entry of which is real, is the whole-array function. -/
theorem result_eq (x0 : (⟨S100000x128, .f32⟩ : BufTy).Contents (Elt Ideal)) (x1 : (⟨S30x128, .f32⟩ : BufTy).Contents (Elt Ideal))
    (h0 : ∀ i, x0 i ≠ (⊤ : EReal) ∧ x0 i ≠ (⊥ : EReal)) (h1 : ∀ i, x1 i ≠ (⊤ : EReal) ∧ x1 i ≠ (⊥ : EReal)) :
    val_main_v14 (F := Ideal) x0 x1 = PromptArray.G x0 x1 := by
  funext i
  obtain ⟨p, d, rfl⟩ : ∃ (p : Fin 100000) (d : Fin 128), i = ix2 p d := ⟨i 0, i 1, eq_ix2 i⟩
  rw [RefRow.result_apply, PromptArray.G_apply]
  exact PromptRow.stabilised_eq_direct_of_real _ _ (fun k => h0 _) (fun j k => h1 _) d

end Cert.ReferenceIdeal.Whole

end
-- ==== Proof.FiniteInputs.lean ====
/-
  The precondition read back: every entry of both argument arrays is a real number.

  The precondition takes |x| entry by entry, compares it with +∞ ("less than"), takes the conjunction of all the
  comparisons of the node array and of the token array, and asks the conjunction of the two to be true. On the
  extended reals |x| = max x (−x) is +∞ exactly at the two infinities, so a true comparison says that the entry is
  neither +∞ nor −∞.
-/
import proofs.«181087_g52999896432999_cont_9to1_m_358_28_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

variable [Facts]
open Facts

/-- The scalar shape has one index. -/
instance : Subsingleton S_.Idx := ⟨fun a b => funext fun d => d.elim0⟩

/-- An extended real whose absolute value compares below the +∞ pattern is neither infinity. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have htop : Ideal.ofBits .f32 0x7F800000#32 = (⊤ : EReal) := by simp [Ideal.ofBits, Ideal.ieee]
  have hlt : max x (-x) < (⊤ : EReal) := by
    by_contra hn
    have h0 : FloatOps.cmpf (F := Ideal) (φ := .f32) .olt (FloatOps.hostAbsf (F := Ideal) (φ := .f32) x) (FloatOps.ofBits (F := Ideal) .f32 0x7F800000#32) = 0#1 := by
      show BitVec.ofBool (decide (max x (-x) < Ideal.ofBits .f32 0x7F800000#32)) = 0#1
      rw [htop, decide_eq_false hn]
      rfl
    rw [h0] at h
    exact absurd h (by decide)
  constructor
  · rintro rfl
    simp at hlt
  · rintro rfl
    simp at hlt

/-- Under the precondition every entry of the node array and of the token array is real. -/
theorem real_of_pre (a0 : FVec Ideal S100000x128 .f32) (a1 : FVec Ideal S30x128 .f32)
    (h : fn (F := Ideal) a0 a1 = fun _ => 1#1) :
    (∀ i, a0 i ≠ ⊤ ∧ a0 i ≠ ⊥) ∧ (∀ i, a1 i ≠ ⊤ ∧ a1 i ≠ ⊥) := by
  have h0 := congrFun h ValueIdx.ix0
  dsimp only [fn] at h0
  obtain ⟨hA, hB⟩ := IntOp.andi_eq_one.1 h0
  exact ⟨fun i => real_of_abs_lt _ (Host.reduce_andi_all _ _ _ _ _ hA i),
    fun i => real_of_abs_lt _ (Host.reduce_andi_all _ _ _ _ _ hB i)⟩

end Cert.Pre_finite_inputs.Finite

end
-- ==== Proof.lean ====
/-
  out = x + softmax(x · tᵀ) · t, computed tile by tile, against the same layer written with a stabilised softmax.

  The kernel streams the 100000 × 128 node array x through ten tiles of 10000 rows. On a tile it forms the logits
  ℓ[j, p] = ∑_k t[j, k] · x[p, k] against the 30 token rows, exponentiates them as they are, divides by the sum over
  the tokens, and adds ∑_j weight[j, p] · t[j, d] to x[p, d]. The reference forms the logits x · tᵀ, subtracts each
  row's largest logit before exponentiating, divides by the sum of the shifted exponentials, multiplies by t and adds x.

  At the ideal values both are one function of the two argument arrays, entry by entry, PROVIDED the entries are
  real: the logits are then finite sums of products of reals, the largest logit of a row is a real M, and
  e^{ℓ − M} / ∑ e^{ℓ' − M} = e^{ℓ} / ∑ e^{ℓ'} because the common factor e^{−M} cancels and neither denominator is zero.
  (With an infinite entry a logit can be ∞ − ∞, and the two sides need not agree: the precondition, every input
  finite, is used exactly here.) The order of the factors in a logit and the tiling of the rows make no difference:
  products of extended reals commute, and an output row depends on x through that row only.

  The pieces: the shift law on the reals and its lift to the extended reals (SoftmaxShift); the two spellings of the
  layer on one row and their equality for real rows (PromptRow); the whole-array function (PromptArray); the kernel's
  stored tile read entry by entry (KernelRow) and the ten tiles assembled into the array (KernelValue); the reference's
  stages read entry by entry (RefRow) and its result for real arrays (RefValue); the precondition read back as "every
  entry is real" (FiniteInputs). No operation was rewritten when the idealized kernel was printed, so that conjunct is
  trivial; the three runs' termination and unchanged arguments are the frames.
-/
import proofs.«181087_g52999896432999_cont_9to1_m_358_28_alg».proof.Defs
import proofs.«181087_g52999896432999_cont_9to1_m_358_28_alg».proof.Proof.Gen.Kernel
import proofs.«181087_g52999896432999_cont_9to1_m_358_28_alg».proof.Proof.Gen.Kernel.Skeleton
import proofs.«181087_g52999896432999_cont_9to1_m_358_28_alg».proof.Proof.Gen.Kernel.Launch
import proofs.«181087_g52999896432999_cont_9to1_m_358_28_alg».proof.Proof.Gen.Kernel.Points
import proofs.«181087_g52999896432999_cont_9to1_m_358_28_alg».proof.Proof.Gen.Kernel.Frame
import proofs.«181087_g52999896432999_cont_9to1_m_358_28_alg».proof.Proof.Gen.KernelIdeal
import proofs.«181087_g52999896432999_cont_9to1_m_358_28_alg».proof.Proof.Gen.KernelIdeal.Skeleton
import proofs.«181087_g52999896432999_cont_9to1_m_358_28_alg».proof.Proof.Gen.KernelIdeal.Launch
import proofs.«181087_g52999896432999_cont_9to1_m_358_28_alg».proof.Proof.Gen.KernelIdeal.Points
import proofs.«181087_g52999896432999_cont_9to1_m_358_28_alg».proof.Proof.Gen.KernelIdeal.Frame
import proofs.«181087_g52999896432999_cont_9to1_m_358_28_alg».proof.Proof.Gen.ReferenceIdeal
import proofs.«181087_g52999896432999_cont_9to1_m_358_28_alg».proof.Proof.Gen.Pre_finite_inputs
import proofs.«181087_g52999896432999_cont_9to1_m_358_28_alg».proof.Proof.Gen.KernelIdeal.Value
import proofs.«181087_g52999896432999_cont_9to1_m_358_28_alg».proof.Proof.Gen.ReferenceIdeal.Run
import proofs.«181087_g52999896432999_cont_9to1_m_358_28_alg».proof.Proof.Gen.ReferenceIdeal.Read
import proofs.«181087_g52999896432999_cont_9to1_m_358_28_alg».proof.Proof.KernelValue
import proofs.«181087_g52999896432999_cont_9to1_m_358_28_alg».proof.Proof.RefValue
import proofs.«181087_g52999896432999_cont_9to1_m_358_28_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, every entry real, the kernel's result array and the reference's
    are the same whole-array function of the arguments. -/
theorem algebraic : Cert.algebraic_KernelIdeal_ReferenceIdeal := by
  intro m ρ m' ρ' hpre hagree
  refine ⟨fun c => Cert.PromptArray.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.Pre_finite_inputs.Finite.real_of_pre _ _ (hpre c)
  rw [(hagree c).1, (hagree c).2, Cert.ReferenceIdeal.Read.val_main_v14_eq]
  exact Cert.ReferenceIdeal.Whole.result_eq _ _ h0 h1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
